-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2000000 : Shape := ⟨1, ![2000000]⟩
abbrev S2000000x2 : Shape := ⟨2, ![2000000, 2]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x51 : Shape := ⟨2, ![4, 51]⟩
abbrev S51 : Shape := ⟨1, ![51]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x51 : S_.BroadcastsInDim S4x51 (![] : Fin 0 → Fin S4x51.rank)
  reducesTo_S4x51_S_d0_1 : S4x51.ReducesTo [0, 1] S_
  bcast_S_S51 : S_.BroadcastsInDim S51 (![] : Fin 0 → Fin S51.rank)
  reducesTo_S51_S_d0 : S51.ReducesTo [0] S_

variable [Facts]

def fn_part4 {F : FTy → Type} [FloatOps F] (main_arg16 : FVec F S51 .f32) (main_v63 : IVec S_ 1) (main_v67 : IVec S_ 1) : IVec S_ 1 :=
  let main_v68 : IVec S_ 1 := andi main_v63 main_v67
  let main_v69 : FVec F S51 .f32 := Host.absf main_arg16
  let main_cst_26 : FVec F S_ .f32 := constant S_ .f32 0x7F800000#32
  let main_v70 : FVec F S51 .f32 := broadcastInDim S51 ![] bcast_S_S51 main_cst_26
  let main_v71 : IVec S51 1 := cmpf .olt main_v69 main_v70
  let main_c_27 : IVec S_ 1 := constantI S_ 1 1#1
  let main_v72 : IVec S_ 1 := (fun x v => Host.reduce IntOp.andi x v reducesTo_S51_S_d0 h_S_) main_v71 main_c_27
  let main_v73 : IVec S_ 1 := andi main_v68 main_v72
  main_v73

def fn_part3 {F : FTy → Type} [FloatOps F] (main_arg13 : FVec F S8x4 .f32) (main_arg14 : FVec F S4 .f32) (main_arg15 : FVec F S4x51 .f32) (main_arg16 : FVec F S51 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x4 .f32 := Host.absf main_arg13
  let main_cst_20 : FVec F S_ .f32 := constant S_ .f32 0x7F800000#32
  let main_v55 : FVec F S8x4 .f32 := broadcastInDim S8x4 ![] bcast_S_S8x4 main_cst_20
  let main_v56 : IVec S8x4 1 := cmpf .olt main_v54 main_v55
  let main_c_21 : IVec S_ 1 := constantI S_ 1 1#1
  let main_v57 : IVec S_ 1 := (fun x v => Host.reduce IntOp.andi x v reducesTo_S8x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x51 .f32 := Host.absf main_arg15
  let main_cst_24 : FVec F S_ .f32 := constant S_ .f32 0x7F800000#32
  let main_v65 : FVec F S4x51 .f32 := broadcastInDim S4x51 ![] bcast_S_S4x51 main_cst_24
  let main_v66 : IVec S4x51 1 := cmpf .olt main_v64 main_v65
  let main_c_25 : IVec S_ 1 := constantI S_ 1 1#1
  let main_v67 : IVec S_ 1 := (fun x v => Host.reduce IntOp.andi x v reducesTo_S4x51_S_d0_1 h_S_) main_v66 main_c_25
  fn_part4 (F := F) main_arg16 main_v63 main_v67

def fn_part2 {F : FTy → Type} [FloatOps F] (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x51 .f32) (main_arg16 : FVec F S51 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x8 .f32 := Host.absf main_arg11
  let main_cst_16 : FVec F S_ .f32 := constant S_ .f32 0x7F800000#32
  let main_v45 : FVec F S16x8 .f32 := broadcastInDim S16x8 ![] bcast_S_S16x8 main_cst_16
  let main_v46 : IVec S16x8 1 := cmpf .olt main_v44 main_v45
  let main_c_17 : IVec S_ 1 := constantI S_ 1 1#1
  let main_v47 : IVec S_ 1 := (fun x v => Host.reduce IntOp.andi x v reducesTo_S16x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_arg13 main_arg14 main_arg15 main_arg16 main_v48 main_v49 main_v50

def fn_part1 {F : FTy → Type} [FloatOps F] (main_arg6 : FVec F S64 .f32) (main_arg7 : FVec F S64x32 .f32) (main_arg8 : FVec F S32 .f32) (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x51 .f32) (main_arg16 : FVec F S51 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x8 .f32) (main_arg1 : IVec S2000000 32) (main_arg2 : IVec S2000000x2 32) (main_arg3 : FVec F S16x128 .f32) (main_arg4 : FVec F S128 .f32) (main_arg5 : FVec F S128x64 .f32) (main_arg6 : FVec F S64 .f32) (main_arg7 : FVec F S64x32 .f32) (main_arg8 : FVec F S32 .f32) (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x51 .f32) (main_arg16 : FVec F S51 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x8 : Shape := ⟨2, ![100000, 8]⟩
abbrev S2000000 : Shape := ⟨1, ![2000000]⟩
abbrev S2000000x2 : Shape := ⟨2, ![2000000, 2]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x51 : Shape := ⟨2, ![4, 51]⟩
abbrev S51 : Shape := ⟨1, ![51]⟩
abbrev S2000000x1 : Shape := ⟨2, ![2000000, 1]⟩
abbrev S_ : Shape := ⟨0, ![]⟩
abbrev S2000000x8 : Shape := ⟨2, ![2000000, 8]⟩
abbrev S2000000x16 : Shape := ⟨2, ![2000000, 16]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x51 : Shape := ⟨2, ![1, 51]⟩
abbrev S2000000x51 : Shape := ⟨2, ![2000000, 51]⟩
abbrev S8000x16 : Shape := ⟨2, ![8000, 16]⟩
abbrev S8000x51 : Shape := ⟨2, ![8000, 51]⟩
abbrev S8000x128 : Shape := ⟨2, ![8000, 128]⟩
abbrev S8000x64 : Shape := ⟨2, ![8000, 64]⟩
abbrev S8000x32 : Shape := ⟨2, ![8000, 32]⟩
abbrev S8000x8 : Shape := ⟨2, ![8000, 8]⟩
abbrev S8000x4 : Shape := ⟨2, ![8000, 4]⟩

abbrev nBuf : Space → Nat
  | .hbm => 48
  | .vmem => 18
  | .smem => 0
  | _ => 0

abbrev bufTy : (tb : Table) → Fin (tcTables nBuf tb) → BufTy
  | .hbm, ⟨0, _⟩ => ⟨S100000x8, .f32⟩
  | .hbm, ⟨1, _⟩ => ⟨S2000000, .i32⟩
  | .hbm, ⟨2, _⟩ => ⟨S2000000x2, .i32⟩
  | .hbm, ⟨3, _⟩ => ⟨S16x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x4, .f32⟩
  | .hbm, ⟨14, _⟩ => ⟨S4, .f32⟩
  | .hbm, ⟨15, _⟩ => ⟨S4x51, .f32⟩
  | .hbm, ⟨16, _⟩ => ⟨S51, .f32⟩
  | .hbm, ⟨17, _⟩ => ⟨S2000000x1, .i32⟩
  | .hbm, ⟨18, _⟩ => ⟨S2000000, .i32⟩
  | .hbm, ⟨19, _⟩ => ⟨S2000000x1, .i32⟩
  | .hbm, ⟨20, _⟩ => ⟨S2000000, .i32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x8, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x8, .f32⟩
  | .hbm, ⟨39, _⟩ => ⟨S2000000x16, .f32⟩
  | .hbm, ⟨40, _⟩ => ⟨S1x128, .f32⟩
  | .hbm, ⟨41, _⟩ => ⟨S1x64, .f32⟩
  | .hbm, ⟨42, _⟩ => ⟨S1x32, .f32⟩
  | .hbm, ⟨43, _⟩ => ⟨S1x16, .f32⟩
  | .hbm, ⟨44, _⟩ => ⟨S1x8, .f32⟩
  | .hbm, ⟨45, _⟩ => ⟨S1x4, .f32⟩
  | .hbm, ⟨46, _⟩ => ⟨S1x51, .f32⟩
  | .hbm, ⟨47, _⟩ => ⟨S2000000x51, .f32⟩
  | .local _ .vmem, ⟨0, _⟩ => ⟨S8000x16, .f32⟩
  | .local _ .vmem, ⟨1, _⟩ => ⟨S8000x16, .f32⟩
  | .local _ .vmem, ⟨2, _⟩ => ⟨S16x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S32x16, .f32⟩
  | .local _ .vmem, ⟨9, _⟩ => ⟨S1x16, .f32⟩
  | .local _ .vmem, ⟨10, _⟩ => ⟨S16x8, .f32⟩
  | .local _ .vmem, ⟨11, _⟩ => ⟨S1x8, .f32⟩
  | .local _ .vmem, ⟨12, _⟩ => ⟨S8x4, .f32⟩
  | .local _ .vmem, ⟨13, _⟩ => ⟨S1x4, .f32⟩
  | .local _ .vmem, ⟨14, _⟩ => ⟨S4x51, .f32⟩
  | .local _ .vmem, ⟨15, _⟩ => ⟨S1x51, .f32⟩
  | .local _ .vmem, ⟨16, _⟩ => ⟨S8000x51, .f32⟩
  | .local _ .vmem, ⟨17, _⟩ => ⟨S8000x51, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x51 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x51 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8000x51 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x8_S2000000x8_S2000000x16_d1 : Shape.Concatenates [S2000000x8, S2000000x8] S2000000x16 1
  shapeCasts_S128_S1x128 : S128.ShapeCasts S1x128
  shapeCasts_S64_S1x64 : S64.ShapeCasts S1x64
  shapeCasts_S32_S1x32 : S32.ShapeCasts S1x32
  shapeCasts_S16_S1x16 : S16.ShapeCasts S1x16
  shapeCasts_S8_S1x8 : S8.ShapeCasts S1x8
  shapeCasts_S4_S1x4 : S4.ShapeCasts S1x4
  shapeCasts_S51_S1x51 : S51.ShapeCasts S1x51
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8000x4 : S1x4.Broadcasts S8000x4
  inb_S4x51_S4x51_0_0 : ∀ a, (![0, 0] : Fin 2 → Nat) a + S4x51.size a ≤ S4x51.size a
  h_S4x51 : 0 < S4x51.numel
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S8000x51 : S1x51.Broadcasts S8000x51
  inb_S8000x51_S8000x51_0_0 : ∀ a, (![0, 0] : Fin 2 → Nat) a + S8000x51.size a ≤ S8000x51.size a
  h_S8000x51 : 0 < S8000x51.numel
  gather_S100000x8_S2000000x1_S2000000x8_1_0_n_n_0_1_18_wf : GatherDims.WF S100000x8 S2000000x1 S2000000x8 [1] [0] [] [0] [] 1 ![1, 8]
  dot_S8000x16_S16x128_S8000x128_1_0_0_1_n_n_wf : DotDims.WF S8000x16 S16x128 S8000x128 [1] [0] [0] [1] [] []
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  dot_S8000x32_S32x16_S8000x16_1_0_0_1_n_n_wf : DotDims.WF S8000x32 S32x16 S8000x16 [1] [0] [0] [1] [] []
  dot_S8000x16_S16x8_S8000x8_1_0_0_1_n_n_wf : DotDims.WF S8000x16 S16x8 S8000x8 [1] [0] [0] [1] [] []
  dot_S8000x8_S8x4_S8000x4_1_0_0_1_n_n_wf : DotDims.WF S8000x8 S8x4 S8000x4 [1] [0] [0] [1] [] []
  dot_S8000x4_S4x51_S8000x51_1_0_0_1_n_n_wf : DotDims.WF S8000x4 S4x51 S8000x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S2000000x16.size a
  hwx0_0 : ∀ i : grid0.Coords, EltTy.bits .f32 = 32 ∨ (Rect.block (s := S2000000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .f32 = 32 ∨ (Rect.block (s := S32x16) S32x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x8.size a ≤ S16x8.size a
  hwx0_9 : ∀ i : grid0.Coords, EltTy.bits .f32 = 32 ∨ (Rect.block (s := S16x8) S16x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x4.size a ≤ S8x4.size a
  hwx0_11 : ∀ i : grid0.Coords, EltTy.bits .f32 = 32 ∨ (Rect.block (s := S8x4) S8x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4.size a ≤ S1x4.size a
  hwx0_12 : ∀ i : grid0.Coords, EltTy.bits .f32 = 32 ∨ (Rect.block (s := S1x4) S1x4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x51.size a ≤ S4x51.size a
  hwx0_13 : ∀ i : grid0.Coords, EltTy.bits .f32 = 32 ∨ (Rect.block (s := S4x51) S4x51.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x51.size a ≤ S1x51.size a
  hwx0_14 : ∀ i : grid0.Coords, EltTy.bits .f32 = 32 ∨ (Rect.block (s := S1x51) S1x51.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8000x51.size a ≤ S2000000x51.size a
  hwx0_15 : ∀ i : grid0.Coords, EltTy.bits .f32 = 32 ∨ (Rect.block (s := S2000000x51) S8000x51.size (cc0_transform_15 i) (hinb0_15 i)).WholeWords (EltTy.packing .f32)

variable [Facts₀]

def gather_S100000x8_S2000000x1_S2000000x8_1_0_n_n_0_1_18 : GatherDims S100000x8 S2000000x1 S2000000x8 where
  offsetDims := [1]
  collapsedSliceDims := [0]
  operandBatchingDims := []
  startIndicesBatchingDims := []
  startIndexMap := [0]
  indexVectorDim := 1
  sliceSizes := ![1, 8]
  wf := gather_S100000x8_S2000000x1_S2000000x8_1_0_n_n_0_1_18_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def dot_S8000x16_S16x8_S8000x8_1_0_0_1_n_n : DotDims S8000x16 S16x8 S8000x8 where
  lhsContracting := [1]
  rhsContracting := [0]
  lhsNonContracting := [0]
  rhsNonContracting := [1]
  lhsBatch := []
  rhsBatch := []
  wf := dot_S8000x16_S16x8_S8000x8_1_0_0_1_n_n_wf
def dot_S8000x8_S8x4_S8000x4_1_0_0_1_n_n : DotDims S8000x8 S8x4 S8000x4 where
  lhsContracting := [1]
  rhsContracting := [0]
  lhsNonContracting := [0]
  rhsNonContracting := [1]
  lhsBatch := []
  rhsBatch := []
  wf := dot_S8000x8_S8x4_S8000x4_1_0_0_1_n_n_wf
def dot_S8000x4_S4x51_S8000x51_1_0_0_1_n_n : DotDims S8000x4 S4x51 S8000x51 where
  lhsContracting := [1]
  rhsContracting := [0]
  lhsNonContracting := [0]
  rhsNonContracting := [1]
  lhsBatch := []
  rhsBatch := []
  wf := dot_S8000x4_S4x51_S8000x51_1_0_0_1_n_n_wf

abbrev win0_0 : Pipeline.Window sig grid0 :=
  Pipeline.Window.ofSpec (Memref.whole main_v18) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S16x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S8x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S1x4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S4x51.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x51.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S8000x51.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x8 : Shape := ⟨2, ![100000, 8]⟩
abbrev S2000000 : Shape := ⟨1, ![2000000]⟩
abbrev S2000000x2 : Shape := ⟨2, ![2000000, 2]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x51 : Shape := ⟨2, ![4, 51]⟩
abbrev S51 : Shape := ⟨1, ![51]⟩
abbrev S2000000x1 : Shape := ⟨2, ![2000000, 1]⟩
abbrev S_ : Shape := ⟨0, ![]⟩
abbrev S2000000x8 : Shape := ⟨2, ![2000000, 8]⟩
abbrev S2000000x16 : Shape := ⟨2, ![2000000, 16]⟩
abbrev S2000000x128 : Shape := ⟨2, ![2000000, 128]⟩
abbrev S1x128 : Shape := ⟨2, ![1, 128]⟩
abbrev S2000000x64 : Shape := ⟨2, ![2000000, 64]⟩
abbrev S1x64 : Shape := ⟨2, ![1, 64]⟩
abbrev S2000000x32 : Shape := ⟨2, ![2000000, 32]⟩
abbrev S1x32 : Shape := ⟨2, ![1, 32]⟩
abbrev S1x16 : Shape := ⟨2, ![1, 16]⟩
abbrev S1x8 : Shape := ⟨2, ![1, 8]⟩
abbrev S2000000x4 : Shape := ⟨2, ![2000000, 4]⟩
abbrev S1x4 : Shape := ⟨2, ![1, 4]⟩
abbrev S2000000x51 : Shape := ⟨2, ![2000000, 51]⟩
abbrev S1x51 : Shape := ⟨2, ![1, 51]⟩

abbrev nBuf : Space → Nat
  | .hbm => 83
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2000000, .i32⟩
  | .hbm, ⟨2, _⟩ => ⟨S2000000x2, .i32⟩
  | .hbm, ⟨3, _⟩ => ⟨S16x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x4, .f32⟩
  | .hbm, ⟨14, _⟩ => ⟨S4, .f32⟩
  | .hbm, ⟨15, _⟩ => ⟨S4x51, .f32⟩
  | .hbm, ⟨16, _⟩ => ⟨S51, .f32⟩
  | .hbm, ⟨17, _⟩ => ⟨S2000000x1, .i32⟩
  | .hbm, ⟨18, _⟩ => ⟨S2000000, .i32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x8, .f32⟩
  | .hbm, ⟨28, _⟩ => ⟨S2000000x1, .i32⟩
  | .hbm, ⟨29, _⟩ => ⟨S2000000, .i32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x8, .f32⟩
  | .hbm, ⟨39, _⟩ => ⟨S2000000x16, .f32⟩
  | .hbm, ⟨40, _⟩ => ⟨S2000000x128, .f32⟩
  | .hbm, ⟨41, _⟩ => ⟨S1x128, .f32⟩
  | .hbm, ⟨42, _⟩ => ⟨S2000000x128, .f32⟩
  | .hbm, ⟨43, _⟩ => ⟨S2000000x128, .f32⟩
  | .hbm, ⟨44, _⟩ => ⟨S_, .f32⟩
  | .hbm, ⟨45, _⟩ => ⟨S2000000x128, .f32⟩
  | .hbm, ⟨46, _⟩ => ⟨S2000000x128, .f32⟩
  | .hbm, ⟨47, _⟩ => ⟨S2000000x64, .f32⟩
  | .hbm, ⟨48, _⟩ => ⟨S1x64, .f32⟩
  | .hbm, ⟨49, _⟩ => ⟨S2000000x64, .f32⟩
  | .hbm, ⟨50, _⟩ => ⟨S2000000x64, .f32⟩
  | .hbm, ⟨51, _⟩ => ⟨S_, .f32⟩
  | .hbm, ⟨52, _⟩ => ⟨S2000000x64, .f32⟩
  | .hbm, ⟨53, _⟩ => ⟨S2000000x64, .f32⟩
  | .hbm, ⟨54, _⟩ => ⟨S2000000x32, .f32⟩
  | .hbm, ⟨55, _⟩ => ⟨S1x32, .f32⟩
  | .hbm, ⟨56, _⟩ => ⟨S2000000x32, .f32⟩
  | .hbm, ⟨57, _⟩ => ⟨S2000000x32, .f32⟩
  | .hbm, ⟨58, _⟩ => ⟨S_, .f32⟩
  | .hbm, ⟨59, _⟩ => ⟨S2000000x32, .f32⟩
  | .hbm, ⟨60, _⟩ => ⟨S2000000x32, .f32⟩
  | .hbm, ⟨61, _⟩ => ⟨S2000000x16, .f32⟩
  | .hbm, ⟨62, _⟩ => ⟨S1x16, .f32⟩
  | .hbm, ⟨63, _⟩ => ⟨S2000000x16, .f32⟩
  | .hbm, ⟨64, _⟩ => ⟨S2000000x16, .f32⟩
  | .hbm, ⟨65, _⟩ => ⟨S2000000x8, .f32⟩
  | .hbm, ⟨66, _⟩ => ⟨S1x8, .f32⟩
  | .hbm, ⟨67, _⟩ => ⟨S2000000x8, .f32⟩
  | .hbm, ⟨68, _⟩ => ⟨S2000000x8, .f32⟩
  | .hbm, ⟨69, _⟩ => ⟨S_, .f32⟩
  | .hbm, ⟨70, _⟩ => ⟨S2000000x8, .f32⟩
  | .hbm, ⟨71, _⟩ => ⟨S2000000x8, .f32⟩
  | .hbm, ⟨72, _⟩ => ⟨S2000000x4, .f32⟩
  | .hbm, ⟨73, _⟩ => ⟨S1x4, .f32⟩
  | .hbm, ⟨74, _⟩ => ⟨S2000000x4, .f32⟩
  | .hbm, ⟨75, _⟩ => ⟨S2000000x4, .f32⟩
  | .hbm, ⟨76, _⟩ => ⟨S_, .f32⟩
  | .hbm, ⟨77, _⟩ => ⟨S2000000x4, .f32⟩
  | .hbm, ⟨78, _⟩ => ⟨S2000000x4, .f32⟩
  | .hbm, ⟨79, _⟩ => ⟨S2000000x51, .f32⟩
  | .hbm, ⟨80, _⟩ => ⟨S1x51, .f32⟩
  | .hbm, ⟨81, _⟩ => ⟨S2000000x51, .f32⟩
  | .hbm, ⟨82, _⟩ => ⟨S2000000x51, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call4_cst : Ref sig .tc := ⟨.hbm, 76, rfl⟩
abbrev main_call4_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  slices_S2000000x2_S2000000x1_0_0 : S2000000x2.Slices ![0, 0] S2000000x1
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x2_S2000000x1_0_1 : S2000000x2.Slices ![0, 1] S2000000x1
  concatenates_S2000000x8_S2000000x8_S2000000x16_d1 : Shape.Concatenates [S2000000x8, S2000000x8] S2000000x16 1
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000x128 : S_.BroadcastsInDim S2000000x128 (![] : Fin 0 → Fin S2000000x128.rank)
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  bcast_S4_S1x4_1 : S4.BroadcastsInDim S1x4 (![1] : Fin 1 → Fin S1x4.rank)
  bcast_S1x4_S2000000x4_0_1 : S1x4.BroadcastsInDim S2000000x4 (![0, 1] : Fin 2 → Fin S2000000x4.rank)
  bcast_S_S2000000x4 : S_.BroadcastsInDim S2000000x4 (![] : Fin 0 → Fin S2000000x4.rank)
  bcast_S51_S1x51_1 : S51.BroadcastsInDim S1x51 (![1] : Fin 1 → Fin S1x51.rank)
  bcast_S1x51_S2000000x51_0_1 : S1x51.BroadcastsInDim S2000000x51 (![0, 1] : Fin 2 → Fin S2000000x51.rank)
  gather_S100000x8_S2000000x1_S2000000x8_1_0_n_n_0_1_18_wf : GatherDims.WF S100000x8 S2000000x1 S2000000x8 [1] [0] [] [0] [] 1 ![1, 8]
  dot_S2000000x16_S16x128_S2000000x128_1_0_0_1_n_n_wf : DotDims.WF S2000000x16 S16x128 S2000000x128 [1] [0] [0] [1] [] []
  dot_S2000000x128_S128x64_S2000000x64_1_0_0_1_n_n_wf : DotDims.WF S2000000x128 S128x64 S2000000x64 [1] [0] [0] [1] [] []
  dot_S2000000x64_S64x32_S2000000x32_1_0_0_1_n_n_wf : DotDims.WF S2000000x64 S64x32 S2000000x32 [1] [0] [0] [1] [] []
  dot_S2000000x32_S32x16_S2000000x16_1_0_0_1_n_n_wf : DotDims.WF S2000000x32 S32x16 S2000000x16 [1] [0] [0] [1] [] []
  dot_S2000000x16_S16x8_S2000000x8_1_0_0_1_n_n_wf : DotDims.WF S2000000x16 S16x8 S2000000x8 [1] [0] [0] [1] [] []
  dot_S2000000x8_S8x4_S2000000x4_1_0_0_1_n_n_wf : DotDims.WF S2000000x8 S8x4 S2000000x4 [1] [0] [0] [1] [] []
  dot_S2000000x4_S4x51_S2000000x51_1_0_0_1_n_n_wf : DotDims.WF S2000000x4 S4x51 S2000000x51 [1] [0] [0] [1] [] []

variable [Facts₀]

def gather_S100000x8_S2000000x1_S2000000x8_1_0_n_n_0_1_18 : GatherDims S100000x8 S2000000x1 S2000000x8 where
  offsetDims := [1]
  collapsedSliceDims := [0]
  operandBatchingDims := []
  startIndicesBatchingDims := []
  startIndexMap := [0]
  indexVectorDim := 1
  sliceSizes := ![1, 8]
  wf := gather_S100000x8_S2000000x1_S2000000x8_1_0_n_n_0_1_18_wf
def dot_S2000000x16_S16x128_S2000000x128_1_0_0_1_n_n : DotDims S2000000x16 S16x128 S2000000x128 where
  lhsContracting := [1]
  rhsContracting := [0]
  lhsNonContracting := [0]
  rhsNonContracting := [1]
  lhsBatch := []
  rhsBatch := []
  wf := dot_S2000000x16_S16x128_S2000000x128_1_0_0_1_n_n_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def dot_S2000000x32_S32x16_S2000000x16_1_0_0_1_n_n : DotDims S2000000x32 S32x16 S2000000x16 where
  lhsContracting := [1]
  rhsContracting := [0]
  lhsNonContracting := [0]
  rhsNonContracting := [1]
  lhsBatch := []
  rhsBatch := []
  wf := dot_S2000000x32_S32x16_S2000000x16_1_0_0_1_n_n_wf
def dot_S2000000x16_S16x8_S2000000x8_1_0_0_1_n_n : DotDims S2000000x16 S16x8 S2000000x8 where
  lhsContracting := [1]
  rhsContracting := [0]
  lhsNonContracting := [0]
  rhsNonContracting := [1]
  lhsBatch := []
  rhsBatch := []
  wf := dot_S2000000x16_S16x8_S2000000x8_1_0_0_1_n_n_wf
def dot_S2000000x8_S8x4_S2000000x4_1_0_0_1_n_n : DotDims S2000000x8 S8x4 S2000000x4 where
  lhsContracting := [1]
  rhsContracting := [0]
  lhsNonContracting := [0]
  rhsNonContracting := [1]
  lhsBatch := []
  rhsBatch := []
  wf := dot_S2000000x8_S8x4_S2000000x4_1_0_0_1_n_n_wf
def dot_S2000000x4_S4x51_S2000000x51_1_0_0_1_n_n : DotDims S2000000x4 S4x51 S2000000x51 where
  lhsContracting := [1]
  rhsContracting := [0]
  lhsNonContracting := [0]
  rhsNonContracting := [1]
  lhsBatch := []
  rhsBatch := []
  wf := dot_S2000000x4_S4x51_S2000000x51_1_0_0_1_n_n_wf

class Facts : Prop extends Facts₀ where

variable [Facts]
-- ==== Proof.EdgeMlp.lean ====
/-
  The arithmetic both programs perform on ONE edge, stated once over plain functions.

  An edge's input is a row `x : Fin 16 → EReal` (the two gathered object feature rows side by side).
  A dense layer sends a row `x` of width `K` to the row `n ↦ (∑ k, x k * W k n) + b n` of width `N`;
  `relu` clamps every entry below at `0`. The network is seven dense layers,
  16 → 128 → 64 → 32 → 16 → 8 → 4 → 51, with `relu` after layers 1, 2, 3, 5 and 6 and none after
  layers 4 and 7. Nothing here mentions a program: the kernel's tile of 8000 edges and the
  reference's array of 2,000,000 edges are both read, entry by entry, as this one function of a row.
-/
import Idealize.ShloMosaic.PureOps.Ideal
import Idealize.ShloMosaic.Lib.ValueIdx

noncomputable section

namespace Cert.EdgeMlp

open Idealize.ShloMosaic Idealize.ShloMosaic.ValueIdx

/-- One dense layer on a row: the weighted sums over the row's entries, plus the bias. -/
def dense {K N : ℕ} (x : Fin K → EReal) (W : Fin K → Fin N → EReal) (b : Fin N → EReal) : Fin N → EReal :=
  fun n => (∑ k : Fin K, x k * W k n) + b n

/-- The rectifier on a row: every entry clamped below at zero. -/
def relu {N : ℕ} (y : Fin N → EReal) : Fin N → EReal := fun n => max (y n) 0

/-- Two rows that agree entry by entry have the same image under a dense layer. -/
theorem dense_congr {K N : ℕ} {x x' : Fin K → EReal} (h : ∀ k, x k = x' k) (W : Fin K → Fin N → EReal) (b : Fin N → EReal) :
    dense x W b = dense x' W b := by
  have : x = x' := funext h
  rw [this]

/-- A weight matrix `[K, N]` as a function of its two coordinates. -/
abbrev mat {K N : ℕ} (W : (⟨2, ![K, N]⟩ : Shape).Idx → EReal) : Fin K → Fin N → EReal := fun k n => W (ix2 k n)

/-- A bias vector `[N]` as a function of its coordinate. -/
abbrev vec {N : ℕ} (b : (⟨1, ![N]⟩ : Shape).Idx → EReal) : Fin N → EReal := fun n => b (ix1 n)

/-- A bias kept as a one-row matrix `[1, N]` (how the kernel's operands arrive) as a function of its column. -/
abbrev rowvec {N : ℕ} (b : (⟨2, ![1, N]⟩ : Shape).Idx → EReal) : Fin N → EReal := fun n => b (ix2 (0 : Fin 1) n)

/-- The whole network on one edge's row, from the seven weight matrices and seven bias rows. -/
def net (x : Fin 16 → EReal)
    (W0 : Fin 16 → Fin 128 → EReal) (b0 : Fin 128 → EReal) (W1 : Fin 128 → Fin 64 → EReal) (b1 : Fin 64 → EReal)
    (W2 : Fin 64 → Fin 32 → EReal) (b2 : Fin 32 → EReal) (W3 : Fin 32 → Fin 16 → EReal) (b3 : Fin 16 → EReal)
    (W4 : Fin 16 → Fin 8 → EReal) (b4 : Fin 8 → EReal) (W5 : Fin 8 → Fin 4 → EReal) (b5 : Fin 4 → EReal)
    (W6 : Fin 4 → Fin 51 → EReal) (b6 : Fin 51 → EReal) : Fin 51 → EReal :=
  dense (relu (dense (relu (dense (dense (relu (dense (relu (dense (relu (dense x W0 b0)) W1 b1)) W2 b2)) W3 b3) W4 b4)) W5 b5)) W6 b6

/-- The result array `[2000000, 51]` as ONE function of the edge-feature array `[2000000, 16]` and the
    fourteen parameter arrays: entry `(r, q)` is the network on row `r` of the features, read at `q`. -/
def result (h : (⟨2, ![2000000, 16]⟩ : Shape).Idx → EReal)
    (W0 : (⟨2, ![16, 128]⟩ : Shape).Idx → EReal) (b0 : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 16]⟩ : Shape).Idx → EReal) (b3 : (⟨1, ![16]⟩ : Shape).Idx → EReal)
    (W4 : (⟨2, ![16, 8]⟩ : Shape).Idx → EReal) (b4 : (⟨1, ![8]⟩ : Shape).Idx → EReal)
    (W5 : (⟨2, ![8, 4]⟩ : Shape).Idx → EReal) (b5 : (⟨1, ![4]⟩ : Shape).Idx → EReal)
    (W6 : (⟨2, ![4, 51]⟩ : Shape).Idx → EReal) (b6 : (⟨1, ![51]⟩ : Shape).Idx → EReal) :
    (⟨2, ![2000000, 51]⟩ : Shape).Idx → EReal :=
  fun i => net (fun k => h (ix2 (⟨(i 0).val, (i 0).isLt⟩ : Fin 2000000) k))
    (mat W0) (vec b0) (mat W1) (vec b1) (mat W2) (vec b2) (mat W3) (vec b3) (mat W4) (vec b4) (mat W5) (vec b5) (mat W6) (vec b6)
    (⟨(i 1).val, (i 1).isLt⟩ : Fin 51)

/-- At an index given by its coordinates. -/
theorem result_ix2 (h : (⟨2, ![2000000, 16]⟩ : Shape).Idx → EReal)
    (W0 : (⟨2, ![16, 128]⟩ : Shape).Idx → EReal) (b0 : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 16]⟩ : Shape).Idx → EReal) (b3 : (⟨1, ![16]⟩ : Shape).Idx → EReal)
    (W4 : (⟨2, ![16, 8]⟩ : Shape).Idx → EReal) (b4 : (⟨1, ![8]⟩ : Shape).Idx → EReal)
    (W5 : (⟨2, ![8, 4]⟩ : Shape).Idx → EReal) (b5 : (⟨1, ![4]⟩ : Shape).Idx → EReal)
    (W6 : (⟨2, ![4, 51]⟩ : Shape).Idx → EReal) (b6 : (⟨1, ![51]⟩ : Shape).Idx → EReal)
    (r : Fin 2000000) (q : Fin 51) :
    result h W0 b0 W1 b1 W2 b2 W3 b3 W4 b4 W5 b5 W6 b6 (ix2 r q)
      = net (fun k => h (ix2 r k)) (mat W0) (vec b0) (mat W1) (vec b1) (mat W2) (vec b2) (mat W3) (vec b3)
          (mat W4) (vec b4) (mat W5) (vec b5) (mat W6) (vec b6) q := rfl

end Cert.EdgeMlp

end
-- ==== Proof.LibPlainDot.lean ====
/-
  A plain matrix product read at an entry.

  For dimension numbers that contract the left operand's axis 1 with the right operand's axis 0 and
  have no batch axes — `[A, K] × [K, N] → [A, N]` — entry `(p, n)` of a `tpu.matmul` into a zero
  accumulator, and of a host `dot_general`, over the extended reals, is `∑ k : Fin K, a (p, k) * w (k, n)`. The statement is about ANY
  record of such dimension numbers, for any extents and operand element types; nothing here mentions a
  program. A record's six lists are checked by `rfl` where the lemma is used (`IsPlain`), and so are the
  two facts about its contraction shape.
-/
import Idealize.ShloMosaic.PureOps.Ideal.Laws
import Idealize.ShloMosaic.Lib.ValueIdx

noncomputable section

namespace Cert.PlainDot

open Idealize.ShloMosaic Idealize.ShloMosaic.ValueIdx

variable {A K N : ℕ} (d : DotDims (⟨2, ![A, K]⟩ : Shape) (⟨2, ![K, N]⟩ : Shape) (⟨2, ![A, N]⟩ : Shape))

/-- The dimension numbers of a plain product: rows of the left operand against columns of the right. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand is read on its row axis at the entry's row. -/
theorem lhsIdx_row (h : IsPlain d) (i : (⟨2, ![A, N]⟩ : Shape).Idx) (q : d.contr.Idx) :
    (d.lhsIdx i q 0).val = (i 0).val := by
  have hb : (0 : Fin (⟨2, ![A, K]⟩ : Shape).rank) ∉ d.lhsBatch := by rw [h.lb]; exact List.not_mem_nil
  have hn : (0 : Fin (⟨2, ![A, K]⟩ : Shape).rank) ∈ d.lhsNonContracting := by rw [h.ln]; exact List.mem_singleton.mpr rfl
  unfold DotDims.lhsIdx
  rw [dif_neg hb, dif_pos hn]
  simp only [Fin.val_cast]
  have key : ∀ (u v : Nat) (hu : u < (⟨2, ![A, N]⟩ : Shape).rank) (hv : v < (⟨2, ![A, N]⟩ : Shape).rank), u = v →
      (i ⟨u, hu⟩).val = (i ⟨v, hv⟩).val := fun u v hu hv e => by subst e; rfl
  exact key _ _ _ _ (by simp [h.lb, h.ln])

/-- The left operand is read on its contracted axis at the contraction position. -/
theorem lhsIdx_contr (h : IsPlain d) (i : (⟨2, ![A, N]⟩ : Shape).Idx) (q : d.contr.Idx) :
    (d.lhsIdx i q 1).val = (q ⟨0, by rw [d.rank_contr, h.lc]; exact Nat.one_pos⟩).val :=
  d.lhsIdx_val_of_single h.lc i q

/-- The right operand is read on its contracted axis at the contraction position. -/
theorem rhsIdx_contr (h : IsPlain d) (i : (⟨2, ![A, N]⟩ : Shape).Idx) (q : d.contr.Idx) :
    (d.rhsIdx i q 0).val = (q ⟨0, by rw [d.rank_contr, h.lc]; exact Nat.one_pos⟩).val :=
  d.rhsIdx_val_of_single h.rc i q

/-- The right operand is read on its column axis at the entry's column. -/
theorem rhsIdx_col (h : IsPlain d) (i : (⟨2, ![A, N]⟩ : Shape).Idx) (q : d.contr.Idx) :
    (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (u v : Nat) (hu : u < (⟨2, ![A, N]⟩ : Shape).rank) (hv : v < (⟨2, ![A, N]⟩ : Shape).rank), u = v →
      (i ⟨u, hu⟩).val = (i ⟨v, hv⟩).val := fun u v hu hv e => by subst e; rfl
  exact key _ _ _ _ (by simp [h.lb, h.ln, h.rn])

/-- ENTRY `(p, n)` OF A PLAIN PRODUCT into a zero accumulator: the sum over `k : Fin K` of the left operand's
    row `p` against the right operand's column `n`. `hr`, `hs`: the contraction shape is one axis of extent `K`
    (both by `rfl` for a printed record). -/
theorem matmul_zero_apply {φ₁ φ₂ : FTy} (h : IsPlain d) (hr : d.contr.rank = 1) (hs : d.contr.size ⟨0, by omega⟩ = K)
    (prec : Option ContractPrecision) (a : FVec Ideal (⟨2, ![A, K]⟩ : Shape) φ₁) (w : FVec Ideal (⟨2, ![K, N]⟩ : Shape) φ₂)
    (p : Fin A) (n : Fin N) :
    FloatOps.matmul d prec a w (constant (F := Ideal) (⟨2, ![A, N]⟩ : Shape) .f32 0x00000000#32) (ix2 p n)
      = ∑ k : Fin K, a (ix2 p k) * w (ix2 k n) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k := funext fun ax => Fin.ext (by
    match ax with
    | ⟨0, _⟩ => exact lhsIdx_row h _ _
    | ⟨1, _⟩ => exact (lhsIdx_contr h _ _).trans hk)
  have er : d.rhsIdx (ix2 p n) ((contrEquiv1 d K hr hs).symm k) = ix2 k n := funext fun ax => Fin.ext (by
    match ax with
    | ⟨0, _⟩ => exact (rhsIdx_contr h _ _).trans hk
    | ⟨1, _⟩ => exact rhsIdx_col h _ _)
  rw [el, er]

/-- ENTRY `(p, n)` OF A PLAIN `dot_general` on the host, whatever its schedule key: the same sum. -/
theorem dotGeneral_apply {φ₁ φ₂ : FTy} (h : IsPlain d) (hr : d.contr.rank = 1) (hs : d.contr.size ⟨0, by omega⟩ = K)
    (prec : Option ContractPrecision) (sched : HostSchedule) (a : FVec Ideal (⟨2, ![A, K]⟩ : Shape) φ₁)
    (w : FVec Ideal (⟨2, ![K, N]⟩ : Shape) φ₂) (p : Fin A) (n : Fin N) :
    FloatOps.dotGeneral d prec sched a w (ix2 p n) = ∑ k : Fin K, a (ix2 p k) * w (ix2 k n) := by
  rw [Ideal.dotGeneral_apply, ← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k := funext fun ax => Fin.ext (by
    match ax with
    | ⟨0, _⟩ => exact lhsIdx_row h _ _
    | ⟨1, _⟩ => exact (lhsIdx_contr h _ _).trans hk)
  have er : d.rhsIdx (ix2 p n) ((contrEquiv1 d K hr hs).symm k) = ix2 k n := funext fun ax => Fin.ext (by
    match ax with
    | ⟨0, _⟩ => exact (rhsIdx_contr h _ _).trans hk
    | ⟨1, _⟩ => exact rhsIdx_col h _ _)
  rw [el, er]

end Cert.PlainDot

end
-- ==== Proof.TileForm.lean ====
/-
  One dense layer and one rectifier as a TensorCore body spells them on a tile of `A` rows, read at an entry.

  `layer`: both operands narrowed to bf16, multiplied into a zero accumulator, and the bias — a one-row
  matrix `[1, N]` — broadcast down the `A` rows and added. `clamp`: the entrywise maximum with a broadcast
  zero. Over the extended reals narrowing is the identity and the product's entry is a plain sum, so entry
  `(p, n)` of `layer` is `Cert.EdgeMlp.dense` on row `p` of its input, and `clamp` is `Cert.EdgeMlp.relu`
  row by row. Stated for any extents; nothing here mentions a program.
-/
import proofs.«155216_j72980084293697_1_alg».proof.Proof.EdgeMlp
import proofs.«155216_j72980084293697_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.EdgeMlp.Tile

open Cert.EdgeMlp Cert.PlainDot Idealize.ShloMosaic Idealize.ShloMosaic.ValueIdx

variable {A K N : ℕ}

/-- A dense layer in the body's spelling. -/
def layer (d : DotDims (⟨2, ![A, K]⟩ : Shape) (⟨2, ![K, N]⟩ : Shape) (⟨2, ![A, N]⟩ : Shape))
    (hlt : FTy.bf16.bits < FTy.f32.bits)
    (hsc : (⟨2, ![1, N]⟩ : Shape).ShapeCasts (⟨2, ![1, N]⟩ : Shape))
    (hbc : (⟨2, ![1, N]⟩ : Shape).Broadcasts (⟨2, ![A, N]⟩ : Shape))
    (a : FVec Ideal (⟨2, ![A, K]⟩ : Shape) .f32) (w : FVec Ideal (⟨2, ![K, N]⟩ : Shape) .f32)
    (b : FVec Ideal (⟨2, ![1, N]⟩ : Shape) .f32) : FVec Ideal (⟨2, ![A, N]⟩ : Shape) .f32 :=
  addf (matmul d none (truncf .bf16 a hlt) (truncf .bf16 w hlt) (constant (⟨2, ![A, N]⟩ : Shape) .f32 0x00000000#32))
    (broadcastTo (⟨2, ![A, N]⟩ : Shape) (shapeCast (⟨2, ![1, N]⟩ : Shape) b hsc) hbc)

/-- The rectifier in the body's spelling. -/
def clamp {S : Shape} (y : FVec Ideal S .f32) : FVec Ideal S .f32 :=
  maximumf y (broadcast S (Scalar.ofBits (F := Ideal) .f32 0x00000000#32))

/-- Entry `(p, n)` of a layer is the dense layer on row `p` of its input. -/
theorem layer_apply {d : DotDims (⟨2, ![A, K]⟩ : Shape) (⟨2, ![K, N]⟩ : Shape) (⟨2, ![A, N]⟩ : Shape)}
    (h : IsPlain d) (hr : d.contr.rank = 1) (hs : d.contr.size ⟨0, by omega⟩ = K)
    (hlt : FTy.bf16.bits < FTy.f32.bits)
    (hsc : (⟨2, ![1, N]⟩ : Shape).ShapeCasts (⟨2, ![1, N]⟩ : Shape))
    (hbc : (⟨2, ![1, N]⟩ : Shape).Broadcasts (⟨2, ![A, N]⟩ : Shape))
    (a : FVec Ideal (⟨2, ![A, K]⟩ : Shape) .f32) (w : FVec Ideal (⟨2, ![K, N]⟩ : Shape) .f32)
    (b : FVec Ideal (⟨2, ![1, N]⟩ : Shape) .f32) (p : Fin A) (n : Fin N) :
    layer d hlt hsc hbc a w b (ix2 p n) = dense (fun k => a (ix2 p k)) (mat w) (rowvec b) n := by
  unfold layer
  rw [addf_apply]
  simp only [matmul]
  rw [matmul_zero_apply h hr hs, shapeCast_self, broadcastTo_1b_ab_apply]
  rfl

/-- An entry of the clamped vector is that entry clamped below at zero. -/
theorem clamp_apply {S : Shape} (y : FVec Ideal S .f32) (i : S.Idx) : clamp y i = max (y i) 0 := by
  show max (y i) (Ideal.ofBits .f32 0x00000000#32) = max (y i) 0
  rw [Ideal.ofBits_zero_f32]

/-- Row `p` of a clamped tile is the rectifier of row `p`. -/
theorem clamp_row (y : FVec Ideal (⟨2, ![A, N]⟩ : Shape) .f32) (p : Fin A) :
    (fun n => clamp y (ix2 p n)) = relu (fun n => y (ix2 p n)) :=
  funext fun n => clamp_apply y (ix2 p n)

/-- Row `p` of a layer's output is the dense layer on row `p` of its input. -/
theorem layer_row {d : DotDims (⟨2, ![A, K]⟩ : Shape) (⟨2, ![K, N]⟩ : Shape) (⟨2, ![A, N]⟩ : Shape)}
    (h : IsPlain d) (hr : d.contr.rank = 1) (hs : d.contr.size ⟨0, by omega⟩ = K)
    (hlt : FTy.bf16.bits < FTy.f32.bits)
    (hsc : (⟨2, ![1, N]⟩ : Shape).ShapeCasts (⟨2, ![1, N]⟩ : Shape))
    (hbc : (⟨2, ![1, N]⟩ : Shape).Broadcasts (⟨2, ![A, N]⟩ : Shape))
    (a : FVec Ideal (⟨2, ![A, K]⟩ : Shape) .f32) (w : FVec Ideal (⟨2, ![K, N]⟩ : Shape) .f32)
    (b : FVec Ideal (⟨2, ![1, N]⟩ : Shape) .f32) (p : Fin A) :
    (fun n => layer d hlt hsc hbc a w b (ix2 p n)) = dense (fun k => a (ix2 p k)) (mat w) (rowvec b) :=
  funext fun n => layer_apply h hr hs hlt hsc hbc a w b p n

end Cert.EdgeMlp.Tile

end
-- ==== Proof.KernelTile.lean ====
/-
  The kernel body's stored value on one tile, read at an entry.

  The body loads a tile `x0` of 8000 edges' features (16 wide), the seven weight matrices and the seven biases (each a
  one-row matrix), runs the seven layers in the spelling of `Cert.EdgeMlp.Tile` — a rectifier after layers 1, 2, 3, 5
  and 6 — and stores the `[8000, 51]` result. So entry `(p, q)` of what it stores is the network of
  `Cert.EdgeMlp` on row `p` of the tile, read at `q`.
-/
import proofs.«155216_j72980084293697_1_alg».proof.Proof.Gen.KernelIdeal.Skeleton
import proofs.«155216_j72980084293697_1_alg».proof.Proof.TileForm

noncomputable section

namespace Cert.KernelIdeal.TileBody

open Cert.KernelIdeal Cert.KernelIdeal.Gen Cert.EdgeMlp Cert.EdgeMlp.Tile Cert.PlainDot
open Idealize.ShloMosaic Idealize.ShloMosaic.TcCoe Idealize.ShloMosaic.ValueIdx

/-- The stored value is the seven layers, innermost first, in the tile spelling (the printed operations, regrouped). -/
theorem stored_eq (x0 : Vec Ideal S8000x16 .f32) (x1 : Vec Ideal S16x128 .f32) (x2 : Vec Ideal S1x128 .f32)
    (x3 : Vec Ideal S128x64 .f32) (x4 : Vec Ideal S1x64 .f32) (x5 : Vec Ideal S64x32 .f32) (x6 : Vec Ideal S1x32 .f32)
    (x7 : Vec Ideal S32x16 .f32) (x8 : Vec Ideal S1x16 .f32) (x9 : Vec Ideal S16x8 .f32) (x10 : Vec Ideal S1x8 .f32)
    (x11 : Vec Ideal S8x4 .f32) (x12 : Vec Ideal S1x4 .f32) (x13 : Vec Ideal S4x51 .f32) (x14 : Vec Ideal S1x51 .f32) :
    k0_pay1 (F := Ideal) (k0_pay2 (F := Ideal) x0 x1 x2 x3 x4 x5 x6 x7) x8 x9 x10 x11 x12 x13 x14
      = layer dot_S8000x4_S4x51_S8000x51_1_0_0_1_n_n bitsLt_bf16_f32 shapeCasts_S1x51_S1x51 broadcasts_S1x51_S8000x51
          (clamp (layer dot_S8000x8_S8x4_S8000x4_1_0_0_1_n_n bitsLt_bf16_f32 shapeCasts_S1x4_S1x4 broadcasts_S1x4_S8000x4
            (clamp (layer dot_S8000x16_S16x8_S8000x8_1_0_0_1_n_n bitsLt_bf16_f32 shapeCasts_S1x8_S1x8 broadcasts_S1x8_S8000x8
              (layer dot_S8000x32_S32x16_S8000x16_1_0_0_1_n_n bitsLt_bf16_f32 shapeCasts_S1x16_S1x16 broadcasts_S1x16_S8000x16
                (clamp (layer dot_S8000x64_S64x32_S8000x32_1_0_0_1_n_n bitsLt_bf16_f32 shapeCasts_S1x32_S1x32 broadcasts_S1x32_S8000x32
                  (clamp (layer dot_S8000x128_S128x64_S8000x64_1_0_0_1_n_n bitsLt_bf16_f32 shapeCasts_S1x64_S1x64 broadcasts_S1x64_S8000x64
                    (clamp (layer dot_S8000x16_S16x128_S8000x128_1_0_0_1_n_n bitsLt_bf16_f32 shapeCasts_S1x128_S1x128 broadcasts_S1x128_S8000x128
                      (shapeCast S8000x16 x0 shapeCasts_S8000x16_S8000x16) x1 x2))
                    x3 x4))
                  x5 x6))
                x7 x8)
              x9 x10))
            x11 x12))
          x13 x14 := rfl

/-- ENTRY `(p, q)` OF THE STORED VALUE: the network on row `p` of the tile, at `q`. -/
theorem stored_apply (x0 : Vec Ideal S8000x16 .f32) (x1 : Vec Ideal S16x128 .f32) (x2 : Vec Ideal S1x128 .f32)
    (x3 : Vec Ideal S128x64 .f32) (x4 : Vec Ideal S1x64 .f32) (x5 : Vec Ideal S64x32 .f32) (x6 : Vec Ideal S1x32 .f32)
    (x7 : Vec Ideal S32x16 .f32) (x8 : Vec Ideal S1x16 .f32) (x9 : Vec Ideal S16x8 .f32) (x10 : Vec Ideal S1x8 .f32)
    (x11 : Vec Ideal S8x4 .f32) (x12 : Vec Ideal S1x4 .f32) (x13 : Vec Ideal S4x51 .f32) (x14 : Vec Ideal S1x51 .f32)
    (p : Fin 8000) (q : Fin 51) :
    k0_pay1 (F := Ideal) (k0_pay2 (F := Ideal) x0 x1 x2 x3 x4 x5 x6 x7) x8 x9 x10 x11 x12 x13 x14 (ix2 p q)
      = net (fun k => x0 (ix2 p k)) (mat x1) (rowvec x2) (mat x3) (rowvec x4) (mat x5) (rowvec x6) (mat x7) (rowvec x8)
          (mat x9) (rowvec x10) (mat x11) (rowvec x12) (mat x13) (rowvec x14) q := by
  rw [stored_eq]
  simp only [layer_apply (d := dot_S8000x4_S4x51_S8000x51_1_0_0_1_n_n) ⟨rfl, rfl, rfl, rfl, rfl, rfl⟩ rfl rfl,
    layer_apply (d := dot_S8000x8_S8x4_S8000x4_1_0_0_1_n_n) ⟨rfl, rfl, rfl, rfl, rfl, rfl⟩ rfl rfl,
    layer_apply (d := dot_S8000x16_S16x8_S8000x8_1_0_0_1_n_n) ⟨rfl, rfl, rfl, rfl, rfl, rfl⟩ rfl rfl,
    layer_apply (d := dot_S8000x32_S32x16_S8000x16_1_0_0_1_n_n) ⟨rfl, rfl, rfl, rfl, rfl, rfl⟩ rfl rfl,
    layer_apply (d := dot_S8000x64_S64x32_S8000x32_1_0_0_1_n_n) ⟨rfl, rfl, rfl, rfl, rfl, rfl⟩ rfl rfl,
    layer_apply (d := dot_S8000x128_S128x64_S8000x64_1_0_0_1_n_n) ⟨rfl, rfl, rfl, rfl, rfl, rfl⟩ rfl rfl,
    layer_apply (d := dot_S8000x16_S16x128_S8000x128_1_0_0_1_n_n) ⟨rfl, rfl, rfl, rfl, rfl, rfl⟩ rfl rfl,
    clamp_apply, shapeCast_self]
  rfl

end Cert.KernelIdeal.TileBody

end
-- ==== Proof.KernelValue.lean ====
/-
  The kernel's result array as one function of the argument arrays.

  The grid has 250 points; point `t` works on rows `8000 t … 8000 t + 7999`: its input tile is those rows of the joined
  edge features `[2000000, 16]` (which the host operations before the call build from the object features and the
  pairs), its fourteen parameter operands are whole arrays whatever `t` (the seven biases after the host's reshape
  `[N] → [1, N]`), and it writes back those rows of the result `[2000000, 51]`. By `TileBody.stored_apply` entry
  `(p, q)` of the tile it writes is the network on row `p` of its input tile, so what point `t` writes back is block
  `t` of `Cert.EdgeMlp.result` of the edge features and the parameters; the 250 blocks cover the result array, which
  therefore ends holding `result`.
-/
import proofs.«155216_j72980084293697_1_alg».proof.Proof.Gen.KernelIdeal.Value
import proofs.«155216_j72980084293697_1_alg».proof.Proof.KernelTile
import Idealize.ShloMosaic.Lib.ValueLayout
import Idealize.ShloMosaic.Lib.StableHlo.Run

set_option maxRecDepth 16384

noncomputable section

namespace Cert.KernelIdeal.TileValue

open Cert.KernelIdeal Cert.KernelIdeal.Gen Cert.KernelIdeal.Value Cert.KernelIdeal.TileBody Cert.EdgeMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 250 points -/

/-- The feature window and the result window are at block row `t`, block column 0; every parameter window stays at
    block (0, 0). -/
theorem idx_facts : ∀ t : Fin cfg0.N, win0_0.index t (0 : Fin 2) = t.val ∧ win0_0.index t (1 : Fin 2) = 0
    ∧ win0_15.index t (0 : Fin 2) = t.val ∧ win0_15.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) ∧ (∀ a : Fin 2, win0_11.index t a = 0) ∧ (∀ a : Fin 2, win0_12.index t a = 0)
    ∧ (∀ a : Fin 2, win0_13.index t a = 0) ∧ (∀ a : Fin 2, win0_14.index t a = 0) :=
  (by decide +kernel : ∀ t : Fin grid0.N, _)

/-- Row `p` of point `t`'s tile is row `8000 t + p` of the array. -/
theorem row_lt (t : Fin cfg0.N) (p : Fin 8000) : t.val * 8000 + p.val < 2000000 := by
  have := t.isLt; have h : cfg0.N = 250 := N_0; have := p.isLt; omega

/-! ## The input blocks -/

/-- Point `t`'s feature tile, at `(p, k)`, is the joined edge features at `(8000 t + p, k)`. -/
theorem tile_row (c : Dev nD) (t : Fin cfg0.N) (p : Fin 8000) (k : Fin 16) :
    (iblk m c 0 t : Vec Ideal S8000x16 .f32) (ix2 p k)
      = (V m c main_v18 : Vec Ideal S2000000x16 .f32) (ix2 (⟨t.val * 8000 + p.val, row_lt t p⟩ : Fin 2000000) k) := by
  obtain ⟨e0, e1, -⟩ := idx_facts t
  unfold iblk
  rw [View.read_apply]
  show V m c main_v18 _ = V m c main_v18 _
  congr 1
  funext a
  apply Fin.ext
  match a with
  | ⟨0, _⟩ => show win0_0.index t (0 : Fin 2) * 8000 + 1 * p.val = t.val * 8000 + p.val; rw [e0]; omega
  | ⟨1, _⟩ => show win0_0.index t (1 : Fin 2) * 16 + 1 * k.val = k.val; rw [e1]; omega

/-- Every parameter window's block, at every point, is its whole array as the region finds it. -/
theorem params_whole (c : Dev nD) (t : Fin cfg0.N) :
    (iblk m c 1 t : Vec Ideal S16x128 .f32) = V m c main_arg3 ∧ (iblk m c 2 t : Vec Ideal S1x128 .f32) = V m c main_v19
    ∧ (iblk m c 3 t : Vec Ideal S128x64 .f32) = V m c main_arg5 ∧ (iblk m c 4 t : Vec Ideal S1x64 .f32) = V m c main_v20
    ∧ (iblk m c 5 t : Vec Ideal S64x32 .f32) = V m c main_arg7 ∧ (iblk m c 6 t : Vec Ideal S1x32 .f32) = V m c main_v21
    ∧ (iblk m c 7 t : Vec Ideal S32x16 .f32) = V m c main_arg9 ∧ (iblk m c 8 t : Vec Ideal S1x16 .f32) = V m c main_v22
    ∧ (iblk m c 9 t : Vec Ideal S16x8 .f32) = V m c main_arg11 ∧ (iblk m c 10 t : Vec Ideal S1x8 .f32) = V m c main_v23
    ∧ (iblk m c 11 t : Vec Ideal S8x4 .f32) = V m c main_arg13 ∧ (iblk m c 12 t : Vec Ideal S1x4 .f32) = V m c main_v24
    ∧ (iblk m c 13 t : Vec Ideal S4x51 .f32) = V m c main_arg15 ∧ (iblk m c 14 t : Vec Ideal S1x51 .f32) = V m c main_v25 := by
  obtain ⟨-, -, -, -, e1, e2, e3, e4, e5, e6, e7, e8, e9, e10, e11, e12, e13, e14⟩ := idx_facts t
  unfold iblk
  exact ⟨Memref.read_access_unit_zero (Elt Ideal) main_arg3 (funext fun a => by rw [e1 a]; exact Nat.zero_mul _) _ _,
    Memref.read_access_unit_zero (Elt Ideal) main_v19 (funext fun a => by rw [e2 a]; exact Nat.zero_mul _) _ _,
    Memref.read_access_unit_zero (Elt Ideal) main_arg5 (funext fun a => by rw [e3 a]; exact Nat.zero_mul _) _ _,
    Memref.read_access_unit_zero (Elt Ideal) main_v20 (funext fun a => by rw [e4 a]; exact Nat.zero_mul _) _ _,
    Memref.read_access_unit_zero (Elt Ideal) main_arg7 (funext fun a => by rw [e5 a]; exact Nat.zero_mul _) _ _,
    Memref.read_access_unit_zero (Elt Ideal) main_v21 (funext fun a => by rw [e6 a]; exact Nat.zero_mul _) _ _,
    Memref.read_access_unit_zero (Elt Ideal) main_arg9 (funext fun a => by rw [e7 a]; exact Nat.zero_mul _) _ _,
    Memref.read_access_unit_zero (Elt Ideal) main_v22 (funext fun a => by rw [e8 a]; exact Nat.zero_mul _) _ _,
    Memref.read_access_unit_zero (Elt Ideal) main_arg11 (funext fun a => by rw [e9 a]; exact Nat.zero_mul _) _ _,
    Memref.read_access_unit_zero (Elt Ideal) main_v23 (funext fun a => by rw [e10 a]; exact Nat.zero_mul _) _ _,
    Memref.read_access_unit_zero (Elt Ideal) main_arg13 (funext fun a => by rw [e11 a]; exact Nat.zero_mul _) _ _,
    Memref.read_access_unit_zero (Elt Ideal) main_v24 (funext fun a => by rw [e12 a]; exact Nat.zero_mul _) _ _,
    Memref.read_access_unit_zero (Elt Ideal) main_arg15 (funext fun a => by rw [e13 a]; exact Nat.zero_mul _) _ _,
    Memref.read_access_unit_zero (Elt Ideal) main_v25 (funext fun a => by rw [e14 a]; exact Nat.zero_mul _) _ _⟩

/-! ## The biases as the host leaves them: each argument vector `[N]` recast to one row `[1, N]` -/

theorem bias_host0 (c : Dev nD) : (V m c main_v19 : Vec Ideal S1x128 .f32)
    = shapeCast S1x128 (m ((c : Thread nD τ).loc main_arg4) : Vec Ideal S128 .f32) shapeCasts_S128_S1x128 := by
  dsimp only [Gen.V, Gen.hostOps0]; after_results; rfl
theorem bias_host1 (c : Dev nD) : (V m c main_v20 : Vec Ideal S1x64 .f32)
    = shapeCast S1x64 (m ((c : Thread nD τ).loc main_arg6) : Vec Ideal S64 .f32) shapeCasts_S64_S1x64 := by
  dsimp only [Gen.V, Gen.hostOps0]; after_results; rfl
theorem bias_host2 (c : Dev nD) : (V m c main_v21 : Vec Ideal S1x32 .f32)
    = shapeCast S1x32 (m ((c : Thread nD τ).loc main_arg8) : Vec Ideal S32 .f32) shapeCasts_S32_S1x32 := by
  dsimp only [Gen.V, Gen.hostOps0]; after_results; rfl
theorem bias_host3 (c : Dev nD) : (V m c main_v22 : Vec Ideal S1x16 .f32)
    = shapeCast S1x16 (m ((c : Thread nD τ).loc main_arg10) : Vec Ideal S16 .f32) shapeCasts_S16_S1x16 := by
  dsimp only [Gen.V, Gen.hostOps0]; after_results; rfl
theorem bias_host4 (c : Dev nD) : (V m c main_v23 : Vec Ideal S1x8 .f32)
    = shapeCast S1x8 (m ((c : Thread nD τ).loc main_arg12) : Vec Ideal S8 .f32) shapeCasts_S8_S1x8 := by
  dsimp only [Gen.V, Gen.hostOps0]; after_results; rfl
theorem bias_host5 (c : Dev nD) : (V m c main_v24 : Vec Ideal S1x4 .f32)
    = shapeCast S1x4 (m ((c : Thread nD τ).loc main_arg14) : Vec Ideal S4 .f32) shapeCasts_S4_S1x4 := by
  dsimp only [Gen.V, Gen.hostOps0]; after_results; rfl
theorem bias_host6 (c : Dev nD) : (V m c main_v25 : Vec Ideal S1x51 .f32)
    = shapeCast S1x51 (m ((c : Thread nD τ).loc main_arg16) : Vec Ideal S51 .f32) shapeCasts_S51_S1x51 := by
  dsimp only [Gen.V, Gen.hostOps0]; after_results; rfl

/-- A bias row read at its column is the argument vector there. -/
theorem bias_row {N : ℕ} (b : (⟨1, ![N]⟩ : Shape).Idx → EReal) (h : (⟨1, ![N]⟩ : Shape).ShapeCasts (⟨2, ![1, N]⟩ : Shape)) :
    rowvec (shapeCast (⟨2, ![1, N]⟩ : Shape) b h) = vec b :=
  funext fun n => shapeCast_a_1a_apply b h (0 : Fin 1) n

/-! ## What a point writes back, the cover, the array -/

/-- The result array as the one function of the arrays the region finds: `result` of the joined edge features and
    the fourteen parameter arguments. -/
abbrev out (c : Dev nD) : Vec Ideal S2000000x51 .f32 :=
  result (V m c main_v18) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))

/-- Entry `(p, q)` of the tile point `t` computes is entry `(8000 t + p, q)` of `out`: the network on the same row of
    the joined features, with the same parameters. -/
theorem tile_out (c : Dev nD) (t : Fin cfg0.N) (p : Fin 8000) (q : Fin 51) :
    k0_pay1 (F := Ideal) (k0_pay2 (F := Ideal) (iblk m c 0 t) (iblk m c 1 t) (iblk m c 2 t) (iblk m c 3 t) (iblk m c 4 t) (iblk m c 5 t) (iblk m c 6 t) (iblk m c 7 t))
      (iblk m c 8 t) (iblk m c 9 t) (iblk m c 10 t) (iblk m c 11 t) (iblk m c 12 t) (iblk m c 13 t) (iblk m c 14 t) (ix2 p q)
    = out m c (ix2 (⟨t.val * 8000 + p.val, row_lt t p⟩ : Fin 2000000) q) := by
  obtain ⟨w1, w2, w3, w4, w5, w6, w7, w8, w9, w10, w11, w12, w13, w14⟩ := params_whole m c t
  have a3 := V_main_arg3 m c
  have a5 := V_main_arg5 m c
  have a7 := V_main_arg7 m c
  have a9 := V_main_arg9 m c
  have a11 := V_main_arg11 m c
  have a13 := V_main_arg13 m c
  have a15 := V_main_arg15 m c
  refine (stored_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) p q).trans ?_
  unfold out
  rw [result_ix2, funext (tile_row m c t p), w1, w2, w3, w4, w5, w6, w7, w8, w9, w10, w11, w12, w13, w14,
    bias_host0, bias_host1, bias_host2, bias_host3, bias_host4, bias_host5, bias_host6,
    bias_row, bias_row, bias_row, bias_row, bias_row, bias_row, bias_row, a3, a5, a7, a9, a11, a13, a15]

/-- WHAT POINT `t` WRITES BACK is block `t` of `out`. -/
theorem flushed_eq (c : Dev nD) (t : Fin cfg0.N) :
    (dats m 0 c).flushed 15 t = ((cfg0.win 15).blk t).view.read (Elt Ideal) (out m c) := by
  rw [flushed15]
  unfold out0_15
  rw [View.canon_unit_zero hz]
  simp only [View.ld_unit_zero (S := S8000x16) hz, View.ld_unit_zero (S := S16x128) hz, View.ld_unit_zero (S := S1x128) hz,
    View.ld_unit_zero (S := S128x64) hz, View.ld_unit_zero (S := S1x64) hz, View.ld_unit_zero (S := S64x32) hz,
    View.ld_unit_zero (S := S1x32) hz, View.ld_unit_zero (S := S32x16) hz, View.ld_unit_zero (S := S1x16) hz,
    View.ld_unit_zero (S := S16x8) hz, View.ld_unit_zero (S := S1x8) hz, View.ld_unit_zero (S := S8x4) hz,
    View.ld_unit_zero (S := S1x4) hz, View.ld_unit_zero (S := S4x51) hz, View.ld_unit_zero (S := S1x51) hz]
  obtain ⟨-, -, e0, e1, -⟩ := idx_facts t
  funext j
  obtain ⟨p, q, rfl⟩ : ∃ (p : Fin 8000) (q : Fin 51), j = ix2 p q := ⟨j 0, j 1, eq_ix2 j⟩
  have he : ((cfg0.win 15).blk t).view.emb (ix2 p q) = ix2 (⟨t.val * 8000 + p.val, row_lt t p⟩ : Fin 2000000) q := by
    funext a
    apply Fin.ext
    match a with
    | ⟨0, _⟩ => show win0_15.index t (0 : Fin 2) * 8000 + 1 * p.val = t.val * 8000 + p.val; rw [e0]; omega
    | ⟨1, _⟩ => show win0_15.index t (1 : Fin 2) * 51 + 1 * q.val = q.val; rw [e1]; omega
  show k0_pay1 (F := Ideal) (k0_pay2 (F := Ideal) (iblk m c 0 t) (iblk m c 1 t) (iblk m c 2 t) (iblk m c 3 t) (iblk m c 4 t) (iblk m c 5 t) (iblk m c 6 t) (iblk m c 7 t))
      (iblk m c 8 t) (iblk m c 9 t) (iblk m c 10 t) (iblk m c 11 t) (iblk m c 12 t) (iblk m c 13 t) (iblk m c 14 t) (ix2 p q)
    = out m c (((cfg0.win 15).blk t).view.emb (ix2 p q))
  rw [he]
  exact tile_out m c t p q

/-- An index of the result array is in point `t`'s block iff each coordinate is in the block's range on its axis. -/
theorem mem_blk (t : Fin cfg0.N) (i : S2000000x51.Idx) :
    i ∈ ((cfg0.win 15).blk t).view.set ↔ ∀ a : Fin 2, win0_15.index t a * S8000x51.size a ≤ (i a).val ∧ (i a).val < win0_15.index t a * S8000x51.size a + S8000x51.size a := by
  show i ∈ ((View.whole main_v26).slice (win0_15.rect t)).set ↔ _
  rw [View.set_slice_whole, Rect.mem_set_unit]
  exact Iff.rfl

/-- Row `r` of the result lies in the block of point `r / 8000`: the 250 blocks cover the array. -/
theorem cover (i : S2000000x51.Idx) : ∃ t : Fin cfg0.N, (cfg0.win 15).flush t = true ∧ i ∈ ((cfg0.win 15).blk t).view.set := by
  have hi0 : (i 0).val < 2000000 := (i 0).isLt
  have hi1 : (i 1).val < 51 := (i 1).isLt
  have hN : cfg0.N = 250 := N_0
  have hlt : (i 0).val / 8000 < cfg0.N := by rw [hN]; omega
  obtain ⟨-, -, e0, e1, -⟩ := idx_facts ⟨(i 0).val / 8000, hlt⟩
  refine ⟨⟨(i 0).val / 8000, hlt⟩, flush0_15 _, ?_⟩
  rw [mem_blk]
  intro a
  match a with
  | ⟨0, _⟩ =>
    show win0_15.index ⟨(i 0).val / 8000, hlt⟩ (0 : Fin 2) * 8000 ≤ (i 0).val ∧ (i 0).val < win0_15.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win0_15.index ⟨(i 0).val / 8000, hlt⟩ (1 : Fin 2) * 51 ≤ (i 1).val ∧ (i 1).val < win0_15.index ⟨(i 0).val / 8000, hlt⟩ (1 : Fin 2) * 51 + 51
    rw [e1]; omega

/-- THE RESULT ARRAY after the run is `out`. -/
theorem final (c : Dev nD) : (dats m 0 c).arrAt 15 cfg0.N = out m c :=
  (dats m 0 c).arrAt_eq_of_cover 15 (out m c) (fun t _ => flushed_eq m c t) cover

/-! ## The run, read -/

/-- Every weakly fair execution of the kernel program terminates with the result array at `out` and the arguments
    unchanged. -/
theorem run : θ_run defs (onTc (τ := τ) (main (F := Ideal))) ⟨m, fun _ => 0, ρ⟩ fun r => ∀ c : Dev nD,
      r.2.mem ((c : Thread nD τ).loc main_v26) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (run_blocks m ρ)

end Cert.KernelIdeal.TileValue

end
-- ==== Proof.ArrForm.lean ====
/-
  One dense layer and one rectifier as a host program spells them on an array of `R` rows, read at an entry.

  `layer`: a `dot_general` of the activations with the weights, plus the bias vector `[N]` broadcast first to one
  row `[1, N]` and then down the `R` rows. `clamp`: the entrywise maximum with a scalar zero broadcast to the
  array's shape. Over the extended reals entry `(r, n)` of `layer` is `Cert.EdgeMlp.dense` on row `r` of its input,
  and `clamp` is `Cert.EdgeMlp.relu` row by row. Stated for any extents; nothing here mentions a program.
-/
import proofs.«155216_j72980084293697_1_alg».proof.Proof.EdgeMlp
import proofs.«155216_j72980084293697_1_alg».proof.Proof.LibPlainDot
import Idealize.ShloMosaic.Lib.ValueIdx
import Idealize.ShloMosaic.Lib.Pipeline.Value
import Idealize.ShloMosaic.PureOps.Ideal.Laws

noncomputable section

namespace Cert.EdgeMlp.Arr

open Cert.EdgeMlp Cert.PlainDot Idealize.ShloMosaic Idealize.ShloMosaic.ValueIdx

variable {R K N : ℕ}

/-- A dense layer in the host's spelling. -/
def layer (d : DotDims (⟨2, ![R, K]⟩ : Shape) (⟨2, ![K, N]⟩ : Shape) (⟨2, ![R, N]⟩ : Shape))
    (h1 : (⟨1, ![N]⟩ : Shape).BroadcastsInDim (⟨2, ![1, N]⟩ : Shape) ![1])
    (h2 : (⟨2, ![1, N]⟩ : Shape).BroadcastsInDim (⟨2, ![R, N]⟩ : Shape) ![0, 1])
    (a : FVec Ideal (⟨2, ![R, K]⟩ : Shape) .f32) (w : FVec Ideal (⟨2, ![K, N]⟩ : Shape) .f32)
    (b : FVec Ideal (⟨1, ![N]⟩ : Shape) .f32) : FVec Ideal (⟨2, ![R, N]⟩ : Shape) .f32 :=
  addf (Host.dotGeneral d none a w)
    (broadcastInDim (⟨2, ![R, N]⟩ : Shape) ![0, 1] h2 (broadcastInDim (⟨2, ![1, N]⟩ : Shape) ![1] h1 b))

/-- The rectifier in the host's spelling. -/
def clamp {S : Shape} (h0 : (⟨0, ![]⟩ : Shape).BroadcastsInDim S ![]) (y : FVec Ideal S .f32) : FVec Ideal S .f32 :=
  maximumf y (broadcastInDim S ![] h0 (constant (F := Ideal) (⟨0, ![]⟩ : Shape) .f32 0x00000000#32))

/-- A vector `[N]` broadcast to one row and then down `R` rows reads, at `(r, n)`, the vector at `n`. -/
theorem bias_apply (h1 : (⟨1, ![N]⟩ : Shape).BroadcastsInDim (⟨2, ![1, N]⟩ : Shape) ![1])
    (h2 : (⟨2, ![1, N]⟩ : Shape).BroadcastsInDim (⟨2, ![R, N]⟩ : Shape) ![0, 1])
    (b : (⟨1, ![N]⟩ : Shape).Idx → EReal) (r : Fin R) (n : Fin N) :
    broadcastInDim (⟨2, ![R, N]⟩ : Shape) ![0, 1] h2 (broadcastInDim (⟨2, ![1, N]⟩ : Shape) ![1] h1 b) (ix2 r n) = b (ix1 n) := by
  rw [broadcastInDim_apply _ h2 _ (ix2 r n) (ix2 (0 : Fin 1) n) (fun ax => by
    match ax with
    | ⟨0, _⟩ => show 0 = if (1 : Nat) = 1 then 0 else r.val; rw [if_pos rfl]
    | ⟨1, _⟩ =>
      show n.val = if N = 1 then 0 else n.val
      split
      · have := n.isLt; omega
      · rfl)]
  exact broadcastInDim_apply _ h1 b (ix2 (0 : Fin 1) n) (ix1 n) (fun ax => by
    match ax with
    | ⟨0, _⟩ =>
      show n.val = if N = 1 then 0 else n.val
      split
      · have := n.isLt; omega
      · rfl)

/-- Entry `(r, n)` of a layer is the dense layer on row `r` of its input. -/
theorem layer_apply {d : DotDims (⟨2, ![R, K]⟩ : Shape) (⟨2, ![K, N]⟩ : Shape) (⟨2, ![R, N]⟩ : Shape)}
    (h : IsPlain d) (hr : d.contr.rank = 1) (hs : d.contr.size ⟨0, by omega⟩ = K)
    (h1 : (⟨1, ![N]⟩ : Shape).BroadcastsInDim (⟨2, ![1, N]⟩ : Shape) ![1])
    (h2 : (⟨2, ![1, N]⟩ : Shape).BroadcastsInDim (⟨2, ![R, N]⟩ : Shape) ![0, 1])
    (a : FVec Ideal (⟨2, ![R, K]⟩ : Shape) .f32) (w : FVec Ideal (⟨2, ![K, N]⟩ : Shape) .f32)
    (b : FVec Ideal (⟨1, ![N]⟩ : Shape) .f32) (r : Fin R) (n : Fin N) :
    layer d h1 h2 a w b (ix2 r n) = dense (fun k => a (ix2 r k)) (mat w) (vec b) n := by
  unfold layer
  rw [addf_apply]
  simp only [Host.dotGeneral]
  rw [PlainDot.dotGeneral_apply h hr hs, bias_apply]
  rfl

/-- An entry of the clamped array is that entry clamped below at zero. -/
theorem clamp_apply {S : Shape} (h0 : (⟨0, ![]⟩ : Shape).BroadcastsInDim S ![]) (y : FVec Ideal S .f32) (i : S.Idx) :
    clamp h0 y i = max (y i) 0 := by
  unfold clamp
  rw [maximumf_apply, broadcastInDim_apply _ h0 _ i ix0 (fun ax => ax.elim0), constant_apply, Ideal.ofBits_zero_f32]

end Cert.EdgeMlp.Arr

end
-- ==== Proof.ReferenceArray.lean ====
/-
  The reference's result array, read at an entry.

  After gathering and joining the two feature rows of every edge into an array `[2000000, 16]`, the reference runs the
  seven layers in the host spelling of `Cert.EdgeMlp.Arr` — a rectifier after layers 1, 2, 3, 5 and 6 — on the whole
  array. So entry `(r, q)` of its result is the network of `Cert.EdgeMlp` on row `r` of the edge features, read at
  `q`: the result array IS `Cert.EdgeMlp.result` of the edge features and the fourteen parameter arrays.
-/
import proofs.«155216_j72980084293697_1_alg».proof.Proof.Gen.ReferenceIdeal.Read
import proofs.«155216_j72980084293697_1_alg».proof.Proof.ArrForm

noncomputable section

namespace Cert.ReferenceIdeal.ArrBody

open Cert.ReferenceIdeal Cert.ReferenceIdeal.Gen Cert.ReferenceIdeal.Read Cert.EdgeMlp Cert.EdgeMlp.Arr Cert.PlainDot
open Idealize.ShloMosaic Idealize.ShloMosaic.TcCoe Idealize.ShloMosaic.ValueIdx

/-- The last stage is the seven layers, innermost first, in the host spelling, applied to the joined edge features
    (the printed operations, regrouped). -/
theorem value_eq (x0 : Vec Ideal S100000x8 .f32) (x2 : IVec S2000000x2 32) (x3 : Vec Ideal S16x128 .f32) (x4 : Vec Ideal S128 .f32)
    (x5 : Vec Ideal S128x64 .f32) (x6 : Vec Ideal S64 .f32) (x7 : Vec Ideal S64x32 .f32) (x8 : Vec Ideal S32 .f32)
    (x9 : Vec Ideal S32x16 .f32) (x10 : Vec Ideal S16 .f32) (x11 : Vec Ideal S16x8 .f32) (x12 : Vec Ideal S8 .f32)
    (x13 : Vec Ideal S8x4 .f32) (x14 : Vec Ideal S4 .f32) (x15 : Vec Ideal S4x51 .f32) (x16 : Vec Ideal S51 .f32) :
    val_main_v51 (F := Ideal) x0 x2 x3 x4 x5 x6 x7 x8 x9 x10 x11 x12 x13 x14 x15 x16
      = layer dot_S2000000x4_S4x51_S2000000x51_1_0_0_1_n_n bcast_S51_S1x51_1 bcast_S1x51_S2000000x51_0_1
          (clamp bcast_S_S2000000x4 (layer dot_S2000000x8_S8x4_S2000000x4_1_0_0_1_n_n bcast_S4_S1x4_1 bcast_S1x4_S2000000x4_0_1
            (clamp bcast_S_S2000000x8 (layer dot_S2000000x16_S16x8_S2000000x8_1_0_0_1_n_n bcast_S8_S1x8_1 bcast_S1x8_S2000000x8_0_1
              (layer dot_S2000000x32_S32x16_S2000000x16_1_0_0_1_n_n bcast_S16_S1x16_1 bcast_S1x16_S2000000x16_0_1
                (clamp bcast_S_S2000000x32 (layer dot_S2000000x64_S64x32_S2000000x32_1_0_0_1_n_n bcast_S32_S1x32_1 bcast_S1x32_S2000000x32_0_1
                  (clamp bcast_S_S2000000x64 (layer dot_S2000000x128_S128x64_S2000000x64_1_0_0_1_n_n bcast_S64_S1x64_1 bcast_S1x64_S2000000x64_0_1
                    (clamp bcast_S_S2000000x128 (layer dot_S2000000x16_S16x128_S2000000x128_1_0_0_1_n_n bcast_S128_S1x128_1 bcast_S1x128_S2000000x128_0_1
                      (val_main_v18 (F := Ideal) x0 x2) x3 x4))
                    x5 x6))
                  x7 x8))
                x9 x10)
              x11 x12))
            x13 x14))
          x15 x16 := rfl

/-- THE RESULT ARRAY is the network applied to every row of the joined edge features. -/
theorem value_result (x0 : Vec Ideal S100000x8 .f32) (x2 : IVec S2000000x2 32) (x3 : Vec Ideal S16x128 .f32) (x4 : Vec Ideal S128 .f32)
    (x5 : Vec Ideal S128x64 .f32) (x6 : Vec Ideal S64 .f32) (x7 : Vec Ideal S64x32 .f32) (x8 : Vec Ideal S32 .f32)
    (x9 : Vec Ideal S32x16 .f32) (x10 : Vec Ideal S16 .f32) (x11 : Vec Ideal S16x8 .f32) (x12 : Vec Ideal S8 .f32)
    (x13 : Vec Ideal S8x4 .f32) (x14 : Vec Ideal S4 .f32) (x15 : Vec Ideal S4x51 .f32) (x16 : Vec Ideal S51 .f32) :
    val_main_v51 (F := Ideal) x0 x2 x3 x4 x5 x6 x7 x8 x9 x10 x11 x12 x13 x14 x15 x16
      = result (val_main_v18 (F := Ideal) x0 x2) x3 x4 x5 x6 x7 x8 x9 x10 x11 x12 x13 x14 x15 x16 := by
  funext i
  obtain ⟨r, q, rfl⟩ : ∃ (r : Fin 2000000) (q : Fin 51), i = ix2 r q := ⟨i 0, i 1, eq_ix2 i⟩
  rw [value_eq, result_ix2]
  simp only [layer_apply (d := dot_S2000000x4_S4x51_S2000000x51_1_0_0_1_n_n) ⟨rfl, rfl, rfl, rfl, rfl, rfl⟩ rfl rfl,
    layer_apply (d := dot_S2000000x8_S8x4_S2000000x4_1_0_0_1_n_n) ⟨rfl, rfl, rfl, rfl, rfl, rfl⟩ rfl rfl,
    layer_apply (d := dot_S2000000x16_S16x8_S2000000x8_1_0_0_1_n_n) ⟨rfl, rfl, rfl, rfl, rfl, rfl⟩ rfl rfl,
    layer_apply (d := dot_S2000000x32_S32x16_S2000000x16_1_0_0_1_n_n) ⟨rfl, rfl, rfl, rfl, rfl, rfl⟩ rfl rfl,
    layer_apply (d := dot_S2000000x64_S64x32_S2000000x32_1_0_0_1_n_n) ⟨rfl, rfl, rfl, rfl, rfl, rfl⟩ rfl rfl,
    layer_apply (d := dot_S2000000x128_S128x64_S2000000x64_1_0_0_1_n_n) ⟨rfl, rfl, rfl, rfl, rfl, rfl⟩ rfl rfl,
    layer_apply (d := dot_S2000000x16_S16x128_S2000000x128_1_0_0_1_n_n) ⟨rfl, rfl, rfl, rfl, rfl, rfl⟩ rfl rfl,
    clamp_apply]
  rfl

end Cert.ReferenceIdeal.ArrBody

end
-- ==== Proof.JoinedFeatures.lean ====
/-
  The joined edge features are one and the same array in both programs.

  Before its call the kernel program gathers, on the host, the object feature rows at the two columns of the pairs
  (a negative index wrapped by the table's length 100000) and joins the two `[2000000, 8]` arrays side by side into
  `[2000000, 16]`; the reference does the same, operation for operation. So the array the kernel's call finds in
  its first operand is the reference's stage of that name, as a function of the object features and the pairs.
-/
import proofs.«155216_j72980084293697_1_alg».proof.Proof.Gen.KernelIdeal.Frame
import proofs.«155216_j72980084293697_1_alg».proof.Proof.Gen.ReferenceIdeal.Read
import Idealize.ShloMosaic.Lib.StableHlo.Run

set_option maxRecDepth 16384

noncomputable section

namespace Cert.Proof

open Idealize.ShloMosaic Idealize.ShloMosaic.TcCoe Idealize.SL.Sem

-- the composed term of the twenty-three host operations behind the joined array is long to read back
set_option maxHeartbeats 4000000 in
/-- The joined edge features the kernel's call finds are the reference's. -/
theorem feats_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v18 : Vec Ideal Cert.KernelIdeal.S2000000x16 .f32)
      = Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  dsimp only [Cert.KernelIdeal.Gen.V, Cert.KernelIdeal.Gen.hostOps0]
  after_results
  rfl

end Cert.Proof

end
-- ==== Proof.lean ====
/-
  Edge classification over an object graph: for each of 2,000,000 edges the feature rows of its two endpoint objects are
  gathered and joined into a row of 16 numbers, and a seven-layer network (16 → 128 → 64 → 32 → 16 → 8 → 4 → 51,
  a rectifier after layers 1, 2, 3, 5 and 6) maps that row to 51 scores; the edge labels are returned unchanged.

  Both programs build the joined features with the same host operations. The kernel then runs the network tile by
  tile (250 tiles of 8000 edges, operands narrowed to bf16 before each product), the reference on the whole array.
  Over the extended reals narrowing is the identity and a product's entry is the plain sum over the contracted axis,
  so an entry `(r, q)` of either result is the network of `Cert.EdgeMlp` on row `r` of the joined features, read at `q`
  (`TileValue.run` for the kernel, `ArrBody.value_result` for the reference), and the joined features are one term in
  both programs (`feats_eq`): the same function of arguments that agree. No algebraic law beyond that is used, and the precondition is never opened.
-/
import proofs.«155216_j72980084293697_1_alg».proof.Defs
import proofs.«155216_j72980084293697_1_alg».proof.Proof.Gen.Kernel
import proofs.«155216_j72980084293697_1_alg».proof.Proof.Gen.Kernel.Skeleton
import proofs.«155216_j72980084293697_1_alg».proof.Proof.Gen.Kernel.Launch
import proofs.«155216_j72980084293697_1_alg».proof.Proof.Gen.Kernel.Points
import proofs.«155216_j72980084293697_1_alg».proof.Proof.Gen.Kernel.Frame
import proofs.«155216_j72980084293697_1_alg».proof.Proof.Gen.KernelIdeal
import proofs.«155216_j72980084293697_1_alg».proof.Proof.Gen.KernelIdeal.Skeleton
import proofs.«155216_j72980084293697_1_alg».proof.Proof.Gen.KernelIdeal.Launch
import proofs.«155216_j72980084293697_1_alg».proof.Proof.Gen.KernelIdeal.Points
import proofs.«155216_j72980084293697_1_alg».proof.Proof.Gen.KernelIdeal.Frame
import proofs.«155216_j72980084293697_1_alg».proof.Proof.Gen.ReferenceIdeal
import proofs.«155216_j72980084293697_1_alg».proof.Proof.Gen.Pre_finite_inputs
import proofs.«155216_j72980084293697_1_alg».proof.Proof.Gen.KernelIdeal.Value
import proofs.«155216_j72980084293697_1_alg».proof.Proof.Gen.ReferenceIdeal.Run
import proofs.«155216_j72980084293697_1_alg».proof.Proof.Gen.ReferenceIdeal.Read
import proofs.«155216_j72980084293697_1_alg».proof.Proof.KernelValue
import proofs.«155216_j72980084293697_1_alg».proof.Proof.ReferenceArray
import proofs.«155216_j72980084293697_1_alg».proof.Proof.JoinedFeatures
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The two result arrays are `Cert.EdgeMlp.result` of the same joined features and parameters; the labels pass through. -/
theorem algebraic : Cert.algebraic_KernelIdeal_ReferenceIdeal := by
  intro m ρ m' ρ' _ hagree
  refine ⟨fun c => Cert.KernelIdeal.TileValue.out m c,
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.KernelIdeal.TileValue.run m ρ)
  · refine (θ_run Cert.ReferenceIdeal.defs _ _).mono (fun _ h c => ⟨(h c).1.trans ?_, (h c).2.1.trans (hagree c).2.1, (h c).2.2⟩)
      (Cert.ReferenceIdeal.Value.run (F := Ideal) m' ρ')
    obtain ⟨a0, -, a2, a3, a4, a5, a6, a7, a8, a9, a10, a11, a12, a13, a14, a15, a16⟩ := hagree c
    rw [Cert.ReferenceIdeal.Read.val_main_v51_eq, Cert.ReferenceIdeal.ArrBody.value_result,
      a0, a2, a3, a4, a5, a6, a7, a8, a9, a10, a11, a12, a13, a14, a15, a16, ← feats_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
